-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : IVec S2x3200000 32) (main_arg1 : FVec F S100000x512 .f32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg1
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S2x3200000 : Shape := ⟨2, ![2, 3200000]⟩
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S10000x16 : Shape := ⟨2, ![10000, 16]⟩
abbrev S10000x40 : Shape := ⟨2, ![10000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 106
  | .vmem => 10
  | .smem => 0
  | _ => 0

abbrev bufTy : (tb : Table) → Fin (tcTables nBuf tb) → BufTy
  | .hbm, ⟨0, _⟩ => ⟨S2x3200000, .i32⟩
  | .hbm, ⟨1, _⟩ => ⟨S100000x512, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | .hbm, ⟨104, _⟩ => ⟨S1x40, .f32⟩
  | .hbm, ⟨105, _⟩ => ⟨S40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x40, .f32⟩
  | .local _ .vmem, ⟨8, _⟩ => ⟨S10000x40, .f32⟩
  | .local _ .vmem, ⟨9, _⟩ => ⟨S10000x40, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  slices_S100000x40_S1x40_0_0 : S100000x40.Slices ![0, 0] S1x40
  shapeCasts_S1x40_S40 : S1x40.ShapeCasts S40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg1) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x3200000 : Shape := ⟨2, ![2, 3200000]⟩
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x512, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | .hbm, ⟨104, _⟩ => ⟨S1x40, .f32⟩
  | .hbm, ⟨105, _⟩ => ⟨S40, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  slices_S100000x40_S1x40_0_0 : S100000x40.Slices ![0, 0] S1x40
  shapeCasts_S1x40_S40 : S1x40.ShapeCasts S40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefStretches.lean ====
import proofs.«141457_j50551765074154_1_alg».proof.Proof.RefRun

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- The reference's operations before its first dot_general. -/
abbrev opsA : List (HloOp τ sig (Elt F)) :=
  [ nullary main_v0 (iotaInDim S100000 32 0),
    unary main_arg0 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg0 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first dot_general. -/
abbrev dot1 : HloOp τ sig (Elt F) :=
  binary main_arg1 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F))

/-- The operations between the two dot_generals. -/
abbrev opsB : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- The second dot_general. -/
abbrev dot2 : HloOp τ sig (Elt F) :=
  binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F))

/-- The operations after the second dot_general, up to the second layer's bias add. -/
abbrev opsC1 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v55 main_v57 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)) ]

/-- The log-softmax and the slice of its row 0. -/
abbrev opsC2 : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf,
    unary main_v65 main_v66 ((extractStridedSlice S1x40 ![0, 0] · slices_S100000x40_S1x40_0_0) : (⟨S100000x40, .f32⟩ : BufTy).Contents (Elt F) → (⟨S1x40, .f32⟩ : BufTy).Contents (Elt F)),
    reshape main_v66 main_v67 rfl shapeCasts_S1x40_S40 ]

end Cert.ReferenceIdeal.Stretch

end
-- ==== Proof.StageBase.lean ====
/-
  The two programs' host stretches, compared over ANY buffer contents.

  The contents after a line of host operations are a fold of the operations' results over the contents before it.
  Read at one buffer, the fold is the operation's function applied to the fold read at its operands, down to the
  contents the line started from. The kernel's program has three such lines, the reference one line that we cut at
  the same two places (before and after each dot_general). Stretch by stretch the operations are the same, so:
  whatever two contents the stretches start from, if they agree on the buffers the stretch reads, the stretches'
  results agree. Nothing is said here about what the starting contents are; no float operation is opened.
-/
import proofs.«141457_j50551765074154_1_alg».proof.Proof.Gen.KernelIdeal.Launch
import proofs.«141457_j50551765074154_1_alg».proof.Proof.RefStretches
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Stretch (opsA opsB opsC1 opsC2 dot1 dot2)

/-- A concatenation of two pieces with the pieces as plain arguments. (In `concatenate` the side condition's type
    mentions the list of pieces, so an equation between pieces cannot be used inside the list; here it can.) -/
def join2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem join2_fold {α : Type} (t : Shape) (a : Fin t.rank) (s1 s2 : Shape) (x : s1.Idx → α) (y : s2.Idx → α)
    (h : Shape.Concatenates [s1, s2] t a) :
    concatenate t a [⟨s1, x⟩, ⟨s2, y⟩] h = join2 t a s1 s2 h x y := rfl

variable {F : FTy → Type} [FloatOps F]
-- the contents the kernel's stretch starts from, and the reference's: any
variable (Wk : Valuation τ sig (Elt F)) (Ur : Valuation Cert.ReferenceIdeal.τ Cert.ReferenceIdeal.sig (Elt F))

/-! ## The buffers both later stretches read and none writes -/

/-- Agreement on the two index vectors, the normalisation and the float arguments. -/
def Agree (Wk : Valuation τ sig (Elt F)) (Ur : Valuation Cert.ReferenceIdeal.τ Cert.ReferenceIdeal.sig (Elt F)) : Prop :=
  Wk (Proc.devRef .tc main_v3) = Ur (Proc.devRef .tc Cert.ReferenceIdeal.main_v3)
  ∧ Wk (Proc.devRef .tc main_v6) = Ur (Proc.devRef .tc Cert.ReferenceIdeal.main_v6)
  ∧ Wk (Proc.devRef .tc main_v29) = Ur (Proc.devRef .tc Cert.ReferenceIdeal.main_v29)
  ∧ Wk (Proc.devRef .tc main_arg1) = Ur (Proc.devRef .tc Cert.ReferenceIdeal.main_arg1)
  ∧ Wk (Proc.devRef .tc main_arg2) = Ur (Proc.devRef .tc Cert.ReferenceIdeal.main_arg2)
  ∧ Wk (Proc.devRef .tc main_arg3) = Ur (Proc.devRef .tc Cert.ReferenceIdeal.main_arg3)
  ∧ Wk (Proc.devRef .tc main_arg4) = Ur (Proc.devRef .tc Cert.ReferenceIdeal.main_arg4)
  ∧ Wk (Proc.devRef .tc main_arg5) = Ur (Proc.devRef .tc Cert.ReferenceIdeal.main_arg5)

end Cert.KernelIdeal.Stages

end
-- ==== Proof.StageFirst.lean ====
/- The first stretch of host operations in both programs, over any contents: from the edge list, the source and target index vectors (with the self-loops appended) and the per-edge normalisation; it writes none of the float arguments. -/
import proofs.«141457_j50551765074154_1_alg».proof.Proof.StageBase

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Stretch (opsA opsB opsC1 opsC2 dot1 dot2)

variable {F : FTy → Type} [FloatOps F]
-- the contents the kernel's stretch starts from, and the reference's: any
variable (Wk : Valuation τ sig (Elt F)) (Ur : Valuation Cert.ReferenceIdeal.τ Cert.ReferenceIdeal.sig (Elt F))

/-! ## The first stretch: the edge list's two index vectors and the edge normalisation -/

/-- The source vector (edges' first row, then the self-loops). -/
theorem first_src (e0 : Wk (Proc.devRef .tc main_arg0) = Ur (Proc.devRef .tc Cert.ReferenceIdeal.main_arg0)) :
    after hostOps0_2 (after hostOps0_1 (after hostOps0 Wk)) (Proc.devRef .tc main_v3)
      = after opsA Ur (Proc.devRef .tc Cert.ReferenceIdeal.main_v3) := by
  conv_lhs => simp (disch := decide) only [hostOps0, hostOps0_1, hostOps0_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  conv_rhs => simp (disch := decide) only [opsA, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  rw [e0]
  rfl

/-- The target vector (edges' second row, then the self-loops). -/
theorem first_dst (e0 : Wk (Proc.devRef .tc main_arg0) = Ur (Proc.devRef .tc Cert.ReferenceIdeal.main_arg0)) :
    after hostOps0_2 (after hostOps0_1 (after hostOps0 Wk)) (Proc.devRef .tc main_v6)
      = after opsA Ur (Proc.devRef .tc Cert.ReferenceIdeal.main_v6) := by
  conv_lhs => simp (disch := decide) only [hostOps0, hostOps0_1, hostOps0_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  conv_rhs => simp (disch := decide) only [opsA, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  rw [e0]
  rfl

set_option maxHeartbeats 4000000 in
/-- The per-edge normalisation. -/
theorem first_norm (e0 : Wk (Proc.devRef .tc main_arg0) = Ur (Proc.devRef .tc Cert.ReferenceIdeal.main_arg0)) :
    after hostOps0_2 (after hostOps0_1 (after hostOps0 Wk)) (Proc.devRef .tc main_v29)
      = after opsA Ur (Proc.devRef .tc Cert.ReferenceIdeal.main_v29) := by
  conv_lhs =>
    simp (disch := decide) only [hostOps0, hostOps0_1, hostOps0_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
    simp only [TRef.ofBuf, TRef.toBuf, cast_eq]
  conv_rhs =>
    simp (disch := decide) only [opsA, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
    simp only [TRef.ofBuf, TRef.toBuf, cast_eq]
  rw [e0]
  rfl

/-- The first stretch writes none of the float arguments. -/
theorem first_keeps :
    (after hostOps0_2 (after hostOps0_1 (after hostOps0 Wk)) (Proc.devRef .tc main_arg1) = Wk (Proc.devRef .tc main_arg1))
      ∧ (after hostOps0_2 (after hostOps0_1 (after hostOps0 Wk)) (Proc.devRef .tc main_arg2) = Wk (Proc.devRef .tc main_arg2))
      ∧ (after hostOps0_2 (after hostOps0_1 (after hostOps0 Wk)) (Proc.devRef .tc main_arg3) = Wk (Proc.devRef .tc main_arg3))
      ∧ (after hostOps0_2 (after hostOps0_1 (after hostOps0 Wk)) (Proc.devRef .tc main_arg4) = Wk (Proc.devRef .tc main_arg4))
      ∧ (after hostOps0_2 (after hostOps0_1 (after hostOps0 Wk)) (Proc.devRef .tc main_arg5) = Wk (Proc.devRef .tc main_arg5)) := by
  refine ⟨?_, ?_, ?_, ?_, ?_⟩ <;> simp (disch := decide) only [hostOps0, hostOps0_1, hostOps0_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
theorem first_keeps_ref :
    (after opsA Ur (Proc.devRef .tc Cert.ReferenceIdeal.main_arg1) = Ur (Proc.devRef .tc Cert.ReferenceIdeal.main_arg1))
      ∧ (after opsA Ur (Proc.devRef .tc Cert.ReferenceIdeal.main_arg2) = Ur (Proc.devRef .tc Cert.ReferenceIdeal.main_arg2))
      ∧ (after opsA Ur (Proc.devRef .tc Cert.ReferenceIdeal.main_arg3) = Ur (Proc.devRef .tc Cert.ReferenceIdeal.main_arg3))
      ∧ (after opsA Ur (Proc.devRef .tc Cert.ReferenceIdeal.main_arg4) = Ur (Proc.devRef .tc Cert.ReferenceIdeal.main_arg4))
      ∧ (after opsA Ur (Proc.devRef .tc Cert.ReferenceIdeal.main_arg5) = Ur (Proc.devRef .tc Cert.ReferenceIdeal.main_arg5)) := by
  refine ⟨?_, ?_, ?_, ?_, ?_⟩ <;> simp (disch := decide) only [opsA, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]

/-- After the first stretches, from contents that agree on the arguments. -/
theorem agree_first (e0 : Wk (Proc.devRef .tc main_arg0) = Ur (Proc.devRef .tc Cert.ReferenceIdeal.main_arg0)) (e1 : Wk (Proc.devRef .tc main_arg1) = Ur (Proc.devRef .tc Cert.ReferenceIdeal.main_arg1)) (e2 : Wk (Proc.devRef .tc main_arg2) = Ur (Proc.devRef .tc Cert.ReferenceIdeal.main_arg2))
    (e3 : Wk (Proc.devRef .tc main_arg3) = Ur (Proc.devRef .tc Cert.ReferenceIdeal.main_arg3)) (e4 : Wk (Proc.devRef .tc main_arg4) = Ur (Proc.devRef .tc Cert.ReferenceIdeal.main_arg4)) (e5 : Wk (Proc.devRef .tc main_arg5) = Ur (Proc.devRef .tc Cert.ReferenceIdeal.main_arg5)) :
    Agree (after hostOps0_2 (after hostOps0_1 (after hostOps0 Wk))) (after opsA Ur) := by
  obtain ⟨k1, k2, k3, k4, k5⟩ := first_keeps (F := F) Wk
  obtain ⟨r1, r2, r3, r4, r5⟩ := first_keeps_ref (F := F) Ur
  exact ⟨first_src Wk Ur e0, first_dst Wk Ur e0, first_norm Wk Ur e0,
    k1.trans (e1.trans r1.symm), k2.trans (e2.trans r2.symm), k3.trans (e3.trans r3.symm),
    k4.trans (e4.trans r4.symm), k5.trans (e5.trans r5.symm)⟩

end Cert.KernelIdeal.Stages

end
-- ==== Proof.StageDots.lean ====
/- One dot_general step of the reference, over any contents: the buffer it writes holds the product of its two operands' contents; every other buffer is left alone. -/
import proofs.«141457_j50551765074154_1_alg».proof.Proof.StageBase

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Stretch (opsA opsB opsC1 opsC2 dot1 dot2)

variable {F : FTy → Type} [FloatOps F]
-- the contents the kernel's stretch starts from, and the reference's: any
variable (Wk : Valuation τ sig (Elt F)) (Ur : Valuation Cert.ReferenceIdeal.τ Cert.ReferenceIdeal.sig (Elt F))

/-! ## A dot_general step of the reference: its result, and what it leaves alone -/

theorem dot1_result : dot1.result Ur (Proc.devRef .tc Cert.ReferenceIdeal.main_v30)
    = Host.dotGeneral (φ₁ := .f32) (φ₂ := .f32) Cert.ReferenceIdeal.dot_S100000x512_S512x16_S100000x16_1_0_0_1_n_n none (Ur (Proc.devRef .tc Cert.ReferenceIdeal.main_arg1)) (Ur (Proc.devRef .tc Cert.ReferenceIdeal.main_arg2)) := by
  simp (disch := decide) only [dot1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
theorem dot1_keeps :
    (dot1.result Ur (Proc.devRef .tc Cert.ReferenceIdeal.main_v3) = Ur (Proc.devRef .tc Cert.ReferenceIdeal.main_v3))
      ∧ (dot1.result Ur (Proc.devRef .tc Cert.ReferenceIdeal.main_v6) = Ur (Proc.devRef .tc Cert.ReferenceIdeal.main_v6))
      ∧ (dot1.result Ur (Proc.devRef .tc Cert.ReferenceIdeal.main_v29) = Ur (Proc.devRef .tc Cert.ReferenceIdeal.main_v29))
      ∧ (dot1.result Ur (Proc.devRef .tc Cert.ReferenceIdeal.main_arg1) = Ur (Proc.devRef .tc Cert.ReferenceIdeal.main_arg1))
      ∧ (dot1.result Ur (Proc.devRef .tc Cert.ReferenceIdeal.main_arg2) = Ur (Proc.devRef .tc Cert.ReferenceIdeal.main_arg2))
      ∧ (dot1.result Ur (Proc.devRef .tc Cert.ReferenceIdeal.main_arg3) = Ur (Proc.devRef .tc Cert.ReferenceIdeal.main_arg3))
      ∧ (dot1.result Ur (Proc.devRef .tc Cert.ReferenceIdeal.main_arg4) = Ur (Proc.devRef .tc Cert.ReferenceIdeal.main_arg4))
      ∧ (dot1.result Ur (Proc.devRef .tc Cert.ReferenceIdeal.main_arg5) = Ur (Proc.devRef .tc Cert.ReferenceIdeal.main_arg5)) := by
  refine ⟨?_, ?_, ?_, ?_, ?_, ?_, ?_, ?_⟩ <;> simp (disch := decide) only [dot1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
theorem dot2_result : dot2.result Ur (Proc.devRef .tc Cert.ReferenceIdeal.main_v48)
    = Host.dotGeneral (φ₁ := .f32) (φ₂ := .f32) Cert.ReferenceIdeal.dot_S100000x16_S16x40_S100000x40_1_0_0_1_n_n none (Ur (Proc.devRef .tc Cert.ReferenceIdeal.main_v47)) (Ur (Proc.devRef .tc Cert.ReferenceIdeal.main_arg4)) := by
  simp (disch := decide) only [dot2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
theorem dot2_keeps :
    (dot2.result Ur (Proc.devRef .tc Cert.ReferenceIdeal.main_v3) = Ur (Proc.devRef .tc Cert.ReferenceIdeal.main_v3))
      ∧ (dot2.result Ur (Proc.devRef .tc Cert.ReferenceIdeal.main_v6) = Ur (Proc.devRef .tc Cert.ReferenceIdeal.main_v6))
      ∧ (dot2.result Ur (Proc.devRef .tc Cert.ReferenceIdeal.main_v29) = Ur (Proc.devRef .tc Cert.ReferenceIdeal.main_v29))
      ∧ (dot2.result Ur (Proc.devRef .tc Cert.ReferenceIdeal.main_arg1) = Ur (Proc.devRef .tc Cert.ReferenceIdeal.main_arg1))
      ∧ (dot2.result Ur (Proc.devRef .tc Cert.ReferenceIdeal.main_arg2) = Ur (Proc.devRef .tc Cert.ReferenceIdeal.main_arg2))
      ∧ (dot2.result Ur (Proc.devRef .tc Cert.ReferenceIdeal.main_arg3) = Ur (Proc.devRef .tc Cert.ReferenceIdeal.main_arg3))
      ∧ (dot2.result Ur (Proc.devRef .tc Cert.ReferenceIdeal.main_arg4) = Ur (Proc.devRef .tc Cert.ReferenceIdeal.main_arg4))
      ∧ (dot2.result Ur (Proc.devRef .tc Cert.ReferenceIdeal.main_arg5) = Ur (Proc.devRef .tc Cert.ReferenceIdeal.main_arg5)) := by
  refine ⟨?_, ?_, ?_, ?_, ?_, ?_, ?_, ?_⟩ <;> simp (disch := decide) only [dot2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]

end Cert.KernelIdeal.Stages

end
-- ==== Proof.StageMiddle.lean ====
/- The middle stretch in both programs, over any contents that agree on what it reads: the first product gathered along the sources, scaled per edge, summed into the targets, plus the bias, then relu. It writes none of the carried buffers. -/
import proofs.«141457_j50551765074154_1_alg».proof.Proof.StageBase

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Stretch (opsA opsB opsC1 opsC2 dot1 dot2)

variable {F : FTy → Type} [FloatOps F]
-- the contents the kernel's stretch starts from, and the reference's: any
variable (Wk : Valuation τ sig (Elt F)) (Ur : Valuation Cert.ReferenceIdeal.τ Cert.ReferenceIdeal.sig (Elt F))

/-! ## The middle stretch: gather along sources, scale, sum into targets, bias, relu -/

theorem middle_keeps :
    (after hostOps1_1 (after hostOps1 Wk) (Proc.devRef .tc main_v3) = Wk (Proc.devRef .tc main_v3))
      ∧ (after hostOps1_1 (after hostOps1 Wk) (Proc.devRef .tc main_v6) = Wk (Proc.devRef .tc main_v6))
      ∧ (after hostOps1_1 (after hostOps1 Wk) (Proc.devRef .tc main_v29) = Wk (Proc.devRef .tc main_v29))
      ∧ (after hostOps1_1 (after hostOps1 Wk) (Proc.devRef .tc main_arg1) = Wk (Proc.devRef .tc main_arg1))
      ∧ (after hostOps1_1 (after hostOps1 Wk) (Proc.devRef .tc main_arg2) = Wk (Proc.devRef .tc main_arg2))
      ∧ (after hostOps1_1 (after hostOps1 Wk) (Proc.devRef .tc main_arg3) = Wk (Proc.devRef .tc main_arg3))
      ∧ (after hostOps1_1 (after hostOps1 Wk) (Proc.devRef .tc main_arg4) = Wk (Proc.devRef .tc main_arg4))
      ∧ (after hostOps1_1 (after hostOps1 Wk) (Proc.devRef .tc main_arg5) = Wk (Proc.devRef .tc main_arg5)) := by
  refine ⟨?_, ?_, ?_, ?_, ?_, ?_, ?_, ?_⟩ <;> simp (disch := decide) only [hostOps1, hostOps1_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
theorem middle_keeps_ref :
    (after opsB Ur (Proc.devRef .tc Cert.ReferenceIdeal.main_v3) = Ur (Proc.devRef .tc Cert.ReferenceIdeal.main_v3))
      ∧ (after opsB Ur (Proc.devRef .tc Cert.ReferenceIdeal.main_v6) = Ur (Proc.devRef .tc Cert.ReferenceIdeal.main_v6))
      ∧ (after opsB Ur (Proc.devRef .tc Cert.ReferenceIdeal.main_v29) = Ur (Proc.devRef .tc Cert.ReferenceIdeal.main_v29))
      ∧ (after opsB Ur (Proc.devRef .tc Cert.ReferenceIdeal.main_arg1) = Ur (Proc.devRef .tc Cert.ReferenceIdeal.main_arg1))
      ∧ (after opsB Ur (Proc.devRef .tc Cert.ReferenceIdeal.main_arg2) = Ur (Proc.devRef .tc Cert.ReferenceIdeal.main_arg2))
      ∧ (after opsB Ur (Proc.devRef .tc Cert.ReferenceIdeal.main_arg3) = Ur (Proc.devRef .tc Cert.ReferenceIdeal.main_arg3))
      ∧ (after opsB Ur (Proc.devRef .tc Cert.ReferenceIdeal.main_arg4) = Ur (Proc.devRef .tc Cert.ReferenceIdeal.main_arg4))
      ∧ (after opsB Ur (Proc.devRef .tc Cert.ReferenceIdeal.main_arg5) = Ur (Proc.devRef .tc Cert.ReferenceIdeal.main_arg5)) := by
  refine ⟨?_, ?_, ?_, ?_, ?_, ?_, ?_, ?_⟩ <;> simp (disch := decide) only [opsB, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]

theorem agree_middle (h : Agree Wk Ur) : Agree (after hostOps1_1 (after hostOps1 Wk)) (after opsB Ur) := by
  obtain ⟨a1, a2, a3, a4, a5, a6, a7, a8⟩ := h
  obtain ⟨k1, k2, k3, k4, k5, k6, k7, k8⟩ := middle_keeps (F := F) Wk
  obtain ⟨r1, r2, r3, r4, r5, r6, r7, r8⟩ := middle_keeps_ref (F := F) Ur
  exact ⟨k1.trans (a1.trans r1.symm), k2.trans (a2.trans r2.symm), k3.trans (a3.trans r3.symm), k4.trans (a4.trans r4.symm),
    k5.trans (a5.trans r5.symm), k6.trans (a6.trans r6.symm), k7.trans (a7.trans r7.symm), k8.trans (a8.trans r8.symm)⟩

set_option maxHeartbeats 4000000 in
/-- The hidden layer after its relu, from contents that agree on the first product and on the carried buffers. -/
theorem middle_relu (h : Agree Wk Ur) (e30 : Wk (Proc.devRef .tc main_v30) = Ur (Proc.devRef .tc Cert.ReferenceIdeal.main_v30)) :
    after hostOps1_1 (after hostOps1 Wk) (Proc.devRef .tc main_v47) = after opsB Ur (Proc.devRef .tc Cert.ReferenceIdeal.main_v47) := by
  obtain ⟨a1, a2, a3, a4, a5, a6, a7, a8⟩ := h
  conv_lhs =>
    simp (disch := decide) only [hostOps1, hostOps1_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
    simp only [TRef.ofBuf, TRef.toBuf, cast_eq]
  conv_rhs =>
    simp (disch := decide) only [opsB, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
    simp only [TRef.ofBuf, TRef.toBuf, cast_eq]
  rw [e30, a1, a2, a3, a6]
  rfl

end Cert.KernelIdeal.Stages

end
-- ==== Proof.StageLast.lean ====
/- The last stretch in both programs, over any contents that agree on what it reads, in two steps: the second product gathered along the sources, scaled per edge, summed into the targets, plus the bias; then, from that array alone, the log-softmax over each row and row 0 of it. -/
import proofs.«141457_j50551765074154_1_alg».proof.Proof.StageBase

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Stretch (opsA opsB opsC1 opsC2 dot1 dot2)

variable {F : FTy → Type} [FloatOps F]
-- the contents the kernel's stretch starts from, and the reference's: any
variable (Wk : Valuation τ sig (Elt F)) (Ur : Valuation Cert.ReferenceIdeal.τ Cert.ReferenceIdeal.sig (Elt F))

/-! ## The last stretch: the second layer's sums and bias; then log-softmax and row 0 -/

set_option maxHeartbeats 4000000 in
/-- The second layer before its softmax, from contents that agree on the second product and on the carried buffers. -/
theorem last_sum (h : Agree Wk Ur) (e48 : Wk (Proc.devRef .tc main_v48) = Ur (Proc.devRef .tc Cert.ReferenceIdeal.main_v48)) :
    after hostOps2 Wk (Proc.devRef .tc main_v64) = after opsC1 Ur (Proc.devRef .tc Cert.ReferenceIdeal.main_v64) := by
  obtain ⟨a1, a2, a3, a4, a5, a6, a7, a8⟩ := h
  conv_lhs => simp (disch := decide) only [hostOps2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  conv_rhs => simp (disch := decide) only [opsC1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  rw [e48, a1, a2, a3, a8]
  rfl

set_option maxHeartbeats 4000000 in
/-- The log-softmax and its row 0, from contents that agree on the array it is taken of. -/
theorem last_softmax (e64 : Wk (Proc.devRef .tc main_v64) = Ur (Proc.devRef .tc Cert.ReferenceIdeal.main_v64)) :
    after hostOps2_2 (after hostOps2_1 Wk) (Proc.devRef .tc main_v67) = after opsC2 Ur (Proc.devRef .tc Cert.ReferenceIdeal.main_v67) := by
  conv_lhs =>
    simp (disch := decide) only [hostOps2_1, hostOps2_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  conv_rhs =>
    simp (disch := decide) only [opsC2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', join2_fold]
  rw [e64]
  rfl

end Cert.KernelIdeal.Stages

end
-- ==== Proof.StageSplit.lean ====
/- The reference's line of operations is its three stretches with the two dot_generals between them: the same list, cut. -/
import proofs.«141457_j50551765074154_1_alg».proof.Proof.StageBase

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Stretch (opsA opsB opsC1 opsC2 dot1 dot2)

variable {F : FTy → Type} [FloatOps F]

/-- The reference's line is its three stretches with the two dot_generals between them. -/
theorem ops_split : (Cert.ReferenceIdeal.Value.ops : List (HloOp Cert.ReferenceIdeal.τ Cert.ReferenceIdeal.sig (Elt F))) = opsA ++ (dot1 :: opsB) ++ (dot2 :: opsC1) ++ opsC2 := rfl

end Cert.KernelIdeal.Stages

end
-- ==== Proof.KernelResult.lean ====
/-
  The kernel's result buffer against the reference's, as values of the argument arrays.

  The kernel's program is a first line of host operations, region 0, a middle line, region 1, a last line; the
  reference is one line, cut here at its two dot_generals. A region changes only its output array, which ends holding
  the host's dot_general of the region's two input arrays as it found them (the hypotheses `h0`, `h1`: they hold at
  the extended reals, where a block's product and the whole product are the same sums). So, going down the two
  programs side by side from launch contents that agree on the arguments: after the first lines the two index
  vectors, the normalisation and the float arguments agree; region 0's output is the reference's first product; after
  the middle lines the hidden layer agrees; region 1's output is the reference's second product; and the last lines
  give the same result. Generic in the float family: only folds are read, no float operation is opened.
-/
import proofs.«141457_j50551765074154_1_alg».proof.Proof.Gen.KernelIdeal.Frame
import proofs.«141457_j50551765074154_1_alg».proof.Proof.StageFirst
import proofs.«141457_j50551765074154_1_alg».proof.Proof.StageDots
import proofs.«141457_j50551765074154_1_alg».proof.Proof.StageMiddle
import proofs.«141457_j50551765074154_1_alg».proof.Proof.StageLast
import proofs.«141457_j50551765074154_1_alg».proof.Proof.StageSplit

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.Stages
open Cert.ReferenceIdeal.Stretch (opsA opsB opsC1 opsC2 dot1 dot2)

variable {F : FTy → Type} [FloatOps F]
variable (m : (ℓ : Loc nD τ sig) → Buf (Elt F) ℓ) (ρ : Dev nD → PrngReg)

/-! ## A region changes its output array only -/

theorem region0_out (c : Dev nD) : W4 m ρ c (Proc.devRef .tc main_v30) = (dat0 (V3 m ρ) c).arrAt 2 cfg0.N := W4_arr m ρ c 2
theorem region1_out (c : Dev nD) : W7 m ρ c (Proc.devRef .tc main_v48) = (dat1 (V6 m ρ) c).arrAt 2 cfg1.N := W7_arr m ρ c 2

/-- Region 0 leaves the index vectors, the normalisation and the float arguments as it found them: it writes back
    only its output window; its two input arrays are read, never written. -/
theorem region0_keeps (c : Dev nD) :
    (W4 m ρ c (Proc.devRef .tc main_v3) = W3 m ρ c (Proc.devRef .tc main_v3))
      ∧ (W4 m ρ c (Proc.devRef .tc main_v6) = W3 m ρ c (Proc.devRef .tc main_v6))
      ∧ (W4 m ρ c (Proc.devRef .tc main_v29) = W3 m ρ c (Proc.devRef .tc main_v29))
      ∧ (W4 m ρ c (Proc.devRef .tc main_arg1) = W3 m ρ c (Proc.devRef .tc main_arg1))
      ∧ (W4 m ρ c (Proc.devRef .tc main_arg2) = W3 m ρ c (Proc.devRef .tc main_arg2))
      ∧ (W4 m ρ c (Proc.devRef .tc main_arg3) = W3 m ρ c (Proc.devRef .tc main_arg3))
      ∧ (W4 m ρ c (Proc.devRef .tc main_arg4) = W3 m ρ c (Proc.devRef .tc main_arg4))
      ∧ (W4 m ρ c (Proc.devRef .tc main_arg5) = W3 m ρ c (Proc.devRef .tc main_arg5)) :=
  ⟨W4_of_ne m ρ c main_v3 (by decide), W4_of_ne m ρ c main_v6 (by decide), W4_of_ne m ρ c main_v29 (by decide), (W4_arr m ρ c 0).trans (((dat0 (V3 m ρ) c).arrAt_in 0 rfl _).trans (A_eq0 (V3 m ρ) c 0)), (W4_arr m ρ c 1).trans (((dat0 (V3 m ρ) c).arrAt_in 1 rfl _).trans (A_eq0 (V3 m ρ) c 1)), W4_of_ne m ρ c main_arg3 (by decide), W4_of_ne m ρ c main_arg4 (by decide), W4_of_ne m ρ c main_arg5 (by decide)⟩
/-- So does region 1. -/
theorem region1_keeps (c : Dev nD) :
    (W7 m ρ c (Proc.devRef .tc main_v3) = W6 m ρ c (Proc.devRef .tc main_v3))
      ∧ (W7 m ρ c (Proc.devRef .tc main_v6) = W6 m ρ c (Proc.devRef .tc main_v6))
      ∧ (W7 m ρ c (Proc.devRef .tc main_v29) = W6 m ρ c (Proc.devRef .tc main_v29))
      ∧ (W7 m ρ c (Proc.devRef .tc main_arg1) = W6 m ρ c (Proc.devRef .tc main_arg1))
      ∧ (W7 m ρ c (Proc.devRef .tc main_arg2) = W6 m ρ c (Proc.devRef .tc main_arg2))
      ∧ (W7 m ρ c (Proc.devRef .tc main_arg3) = W6 m ρ c (Proc.devRef .tc main_arg3))
      ∧ (W7 m ρ c (Proc.devRef .tc main_arg4) = W6 m ρ c (Proc.devRef .tc main_arg4))
      ∧ (W7 m ρ c (Proc.devRef .tc main_arg5) = W6 m ρ c (Proc.devRef .tc main_arg5)) :=
  ⟨W7_of_ne m ρ c main_v3 (by decide), W7_of_ne m ρ c main_v6 (by decide), W7_of_ne m ρ c main_v29 (by decide), W7_of_ne m ρ c main_arg1 (by decide), W7_of_ne m ρ c main_arg2 (by decide), W7_of_ne m ρ c main_arg3 (by decide), (W7_arr m ρ c 1).trans (((dat1 (V6 m ρ) c).arrAt_in 1 rfl _).trans (A_eq1 (V6 m ρ) c 1)), W7_of_ne m ρ c main_arg5 (by decide)⟩

/-! ## The two programs side by side -/

/-- Given that each region's output array ends as the host's dot_general of its two input arrays (`h0`, `h1`), the
    kernel's result buffer at the end of its run is the reference's line of operations folded over launch contents
    that agree with the kernel's on the arguments. -/
theorem result_eq
    (h0 : ∀ (V : (c : Dev nD) → (b : Ref sig .tc) → Buf (Elt F) ((c : Thread nD τ).loc b)) (c : Dev nD),
        (dat0 V c).arrAt 2 cfg0.N
          = Host.dotGeneral (F := F) (φ₁ := .f32) (φ₂ := .f32) Cert.ReferenceIdeal.dot_S100000x512_S512x16_S100000x16_1_0_0_1_n_n none (V c main_arg1) (V c main_arg2))
    (h1 : ∀ (V : (c : Dev nD) → (b : Ref sig .tc) → Buf (Elt F) ((c : Thread nD τ).loc b)) (c : Dev nD),
        (dat1 V c).arrAt 2 cfg1.N
          = Host.dotGeneral (F := F) (φ₁ := .f32) (φ₂ := .f32) Cert.ReferenceIdeal.dot_S100000x16_S16x40_S100000x40_1_0_0_1_n_n none (V c main_v47) (V c main_arg4))
    (m' : (ℓ : Loc Cert.ReferenceIdeal.nD Cert.ReferenceIdeal.τ Cert.ReferenceIdeal.sig) → Buf (Elt F) ℓ) (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    W10 m ρ c (Proc.devRef .tc main_v67)
      = after (Cert.ReferenceIdeal.Value.ops (F := F)) (launchContents m' c) (Proc.devRef .tc Cert.ReferenceIdeal.main_v67) := by
  -- the reference's line, cut at its two dot_generals
  rw [ops_split, after_append, after_append, after_append, after_cons, after_cons]
  obtain ⟨g0, g1, g2, g3, g4, g5⟩ := hag
  -- after the first lines
  have hA : Agree (W3 m ρ c) (after opsA (launchContents m' c)) :=
    agree_first (W0 m ρ c) (launchContents m' c) g0.symm g1.symm g2.symm g3.symm g4.symm g5.symm
  -- after region 0 and the first dot_general
  have hR0 : Agree (W4 m ρ c) (dot1.result (after opsA (launchContents m' c))) := by
    obtain ⟨a1, a2, a3, a4, a5, a6, a7, a8⟩ := hA
    obtain ⟨k1, k2, k3, k4, k5, k6, k7, k8⟩ := region0_keeps m ρ c
    obtain ⟨r1, r2, r3, r4, r5, r6, r7, r8⟩ := dot1_keeps (F := F) (after opsA (launchContents m' c))
    exact ⟨k1.trans (a1.trans r1.symm), k2.trans (a2.trans r2.symm), k3.trans (a3.trans r3.symm), k4.trans (a4.trans r4.symm),
      k5.trans (a5.trans r5.symm), k6.trans (a6.trans r6.symm), k7.trans (a7.trans r7.symm), k8.trans (a8.trans r8.symm)⟩
  have e30 : W4 m ρ c (Proc.devRef .tc main_v30) = (dot1.result (after opsA (launchContents m' c))) (Proc.devRef .tc Cert.ReferenceIdeal.main_v30) := by
    rw [region0_out, h0, dot1_result]
    show Host.dotGeneral (F := F) (φ₁ := .f32) (φ₂ := .f32) Cert.ReferenceIdeal.dot_S100000x512_S512x16_S100000x16_1_0_0_1_n_n none (W3 m ρ c (Proc.devRef .tc main_arg1)) (W3 m ρ c (Proc.devRef .tc main_arg2)) = _
    rw [hA.2.2.2.1, hA.2.2.2.2.1]
  -- after the middle lines
  have hB : Agree (W6 m ρ c) (after opsB (dot1.result (after opsA (launchContents m' c)))) := agree_middle (W4 m ρ c) (dot1.result (after opsA (launchContents m' c))) hR0
  have e47 : W6 m ρ c (Proc.devRef .tc main_v47) = (after opsB (dot1.result (after opsA (launchContents m' c)))) (Proc.devRef .tc Cert.ReferenceIdeal.main_v47) := middle_relu (W4 m ρ c) (dot1.result (after opsA (launchContents m' c))) hR0 e30
  -- after region 1 and the second dot_general
  have hR1 : Agree (W7 m ρ c) (dot2.result (after opsB (dot1.result (after opsA (launchContents m' c))))) := by
    obtain ⟨a1, a2, a3, a4, a5, a6, a7, a8⟩ := hB
    obtain ⟨k1, k2, k3, k4, k5, k6, k7, k8⟩ := region1_keeps m ρ c
    obtain ⟨r1, r2, r3, r4, r5, r6, r7, r8⟩ := dot2_keeps (F := F) (after opsB (dot1.result (after opsA (launchContents m' c))))
    exact ⟨k1.trans (a1.trans r1.symm), k2.trans (a2.trans r2.symm), k3.trans (a3.trans r3.symm), k4.trans (a4.trans r4.symm),
      k5.trans (a5.trans r5.symm), k6.trans (a6.trans r6.symm), k7.trans (a7.trans r7.symm), k8.trans (a8.trans r8.symm)⟩
  have e48 : W7 m ρ c (Proc.devRef .tc main_v48) = (dot2.result (after opsB (dot1.result (after opsA (launchContents m' c))))) (Proc.devRef .tc Cert.ReferenceIdeal.main_v48) := by
    rw [region1_out, h1, dot2_result]
    show Host.dotGeneral (F := F) (φ₁ := .f32) (φ₂ := .f32) Cert.ReferenceIdeal.dot_S100000x16_S16x40_S100000x40_1_0_0_1_n_n none (W6 m ρ c (Proc.devRef .tc main_v47)) (W6 m ρ c (Proc.devRef .tc main_arg4)) = _
    rw [e47, hB.2.2.2.2.2.2.1]
  -- the last lines: the second layer's sums and bias, then the log-softmax and its row 0
  exact last_softmax (after hostOps2 (W7 m ρ c)) (after opsC1 (dot2.result (after opsB (dot1.result (after opsA (launchContents m' c)))))) (last_sum (W7 m ρ c) (dot2.result (after opsB (dot1.result (after opsA (launchContents m' c))))) hR1 e48)

end Cert.KernelIdeal.Result

end
-- ==== Proof.Region0Sum.lean ====
/-
  Region 0 of the kernel's program, read as a value. The pallas_call walks the 100000 rows of its left operand in 20
  blocks of 5000 rows; at each point the body multiplies the block [5000, 512] by the whole right operand [512, 16]
  into a zero accumulator and stores the product as the output's block of the same rows. Over the extended reals the
  element (r, q) of a block's product is the sum over k < 512 of left (r, k) times right (k, q), with no rounding and
  no order of summation left in it; the host's dot_general over the whole arrays is the same sum at the same row.
  The blocks' row ranges [5000 t, 5000 t + 5000) tile [0, 100000), so the output array after the region is, at every
  index, that sum: the host's dot_general of the two arrays as the region found them.
-/
import proofs.«141457_j50551765074154_1_alg».proof.Proof.Gen.KernelIdeal.Frame
import proofs.«141457_j50551765074154_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen

/-! ## The row-by-column sum, over the whole arrays and over one block -/

/-- Row `i 0`, column `k` of the whole left operand. -/
abbrev lidxA (i : S100000x16.Idx) (k : Fin 512) : S100000x512.Idx := fun a => match a with
  | ⟨0, _⟩ => ⟨(i 0).val, (i 0).isLt⟩
  | ⟨1, _⟩ => ⟨k.val, k.isLt⟩
/-- Row `k`, column `i 1` of the right operand. -/
abbrev ridxA (i : S100000x16.Idx) (k : Fin 512) : S512x16.Idx := fun a => match a with
  | ⟨0, _⟩ => ⟨k.val, k.isLt⟩
  | ⟨1, _⟩ => ⟨(i 1).val, (i 1).isLt⟩
/-- The same inside a block of 5000 rows. -/
abbrev lidxB (j : S5000x16.Idx) (k : Fin 512) : S5000x512.Idx := fun a => match a with
  | ⟨0, _⟩ => ⟨(j 0).val, (j 0).isLt⟩
  | ⟨1, _⟩ => ⟨k.val, k.isLt⟩
abbrev ridxB (j : S5000x16.Idx) (k : Fin 512) : S512x16.Idx := fun a => match a with
  | ⟨0, _⟩ => ⟨k.val, k.isLt⟩
  | ⟨1, _⟩ => ⟨(j 1).val, (j 1).isLt⟩

/-- The product of the whole arrays, index by index: entry (r, q) is the sum over k of X (r, k) · W (k, q). -/
def rowsTimes (X : FVec Ideal S100000x512 .f32) (W : FVec Ideal S512x16 .f32) : FVec Ideal S100000x16 .f32 :=
  fun i => ∑ k : Fin 512, X (lidxA i k) * W (ridxA i k)

/-! ### The host's dot_general over the whole arrays is that sum -/

theorem refLhs_0 (i : S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x16_S100000x16_1_0_0_1_n_n.lhsBatch by decide), dif_pos (show (0 : Fin Cert.ReferenceIdeal.S100000x512.rank) ∈ Cert.ReferenceIdeal.dot_S100000x512_S512x16_S100000x16_1_0_0_1_n_n.lhsNonContracting by decide)]
  rfl
theorem refLhs_1 (i : S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 1).val = (q ⟨0, by decide⟩).val :=
  Cert.ReferenceIdeal.dot_S100000x512_S512x16_S100000x16_1_0_0_1_n_n.lhsIdx_val_of_single rfl i q
theorem refRhs_0 (i : S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 0).val = (q ⟨0, by decide⟩).val :=
  Cert.ReferenceIdeal.dot_S100000x512_S512x16_S100000x16_1_0_0_1_n_n.rhsIdx_val_of_single rfl i q
theorem refRhs_1 (i : S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 1).val = (i 1).val := by
  unfold DotDims.rhsIdx
  rw [dif_neg (show ¬(1 : Fin Cert.ReferenceIdeal.S512x16.rank) ∈ Cert.ReferenceIdeal.dot_S100000x512_S512x16_S100000x16_1_0_0_1_n_n.rhsBatch by decide), dif_pos (show (1 : Fin Cert.ReferenceIdeal.S512x16.rank) ∈ Cert.ReferenceIdeal.dot_S100000x512_S512x16_S100000x16_1_0_0_1_n_n.rhsNonContracting by decide)]
  rfl

/-- The host's `dot_general` of the whole arrays, at the extended reals, is `rowsTimes`. -/
theorem hostDot_eq (X : FVec Ideal S100000x512 .f32) (W : FVec Ideal S512x16 .f32) :
    Host.dotGeneral (F := Ideal) Cert.ReferenceIdeal.dot_S100000x512_S512x16_S100000x16_1_0_0_1_n_n none X W = rowsTimes X W := by
  funext i
  unfold rowsTimes
  simp only [Host.dotGeneral]
  rw [Ideal.dotGeneral_apply, ← Equiv.sum_comp (ValueIdx.contrEquiv1 Cert.ReferenceIdeal.dot_S100000x512_S512x16_S100000x16_1_0_0_1_n_n 512 rfl rfl).symm]
  refine Finset.sum_congr rfl fun k _ => ?_
  have hk := ValueIdx.contrEquiv1_symm_val Cert.ReferenceIdeal.dot_S100000x512_S512x16_S100000x16_1_0_0_1_n_n 512 rfl rfl k
  have el : Cert.ReferenceIdeal.dot_S100000x512_S512x16_S100000x16_1_0_0_1_n_n.lhsIdx i ((ValueIdx.contrEquiv1 Cert.ReferenceIdeal.dot_S100000x512_S512x16_S100000x16_1_0_0_1_n_n 512 rfl rfl).symm k) = lidxA i k := funext fun a => Fin.ext (by
    match a with
    | ⟨0, _⟩ => exact refLhs_0 _ _
    | ⟨1, _⟩ => exact (refLhs_1 _ _).trans hk)
  have er : Cert.ReferenceIdeal.dot_S100000x512_S512x16_S100000x16_1_0_0_1_n_n.rhsIdx i ((ValueIdx.contrEquiv1 Cert.ReferenceIdeal.dot_S100000x512_S512x16_S100000x16_1_0_0_1_n_n 512 rfl rfl).symm k) = ridxA i k := funext fun a => Fin.ext (by
    match a with
    | ⟨0, _⟩ => exact (refRhs_0 _ _).trans hk
    | ⟨1, _⟩ => exact refRhs_1 _ _)
  rw [el, er]

/-! ### The body's matmul of one block is the same sum over the block's rows -/

theorem blkLhs_0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem blkLhs_1 (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
theorem blkRhs_0 (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
theorem blkRhs_1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- The body's payload — the block times the right operand into a zero accumulator — at an index of the block. -/
theorem pay_apply (x0 : FVec Ideal S5000x512 .f32) (x1 : FVec Ideal S512x16 .f32) (j : S5000x16.Idx) :
    k0_pay1 (F := Ideal) x0 x1 j = ∑ k : Fin 512, x0 (lidxB j k) * x1 (ridxB j k) := by
  unfold k0_pay1
  simp only [matmul, shapeCast_self]
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx j ((ValueIdx.contrEquiv1 dot_S5000x512_S512x16_S5000x16_1_0_0_1_n_n 512 rfl rfl).symm k) = lidxB j k := funext fun a => Fin.ext (by
    match a with
    | ⟨0, _⟩ => exact blkLhs_0 _ _
    | ⟨1, _⟩ => exact (blkLhs_1 _ _).trans hk)
  have er : dot_S5000x512_S512x16_S5000x16_1_0_0_1_n_n.rhsIdx j ((ValueIdx.contrEquiv1 dot_S5000x512_S512x16_S5000x16_1_0_0_1_n_n 512 rfl rfl).symm k) = ridxB j k := funext fun a => Fin.ext (by
    match a with
    | ⟨0, _⟩ => exact (blkRhs_0 _ _).trans hk
    | ⟨1, _⟩ => exact blkRhs_1 _ _)
  rw [el, er]

end Cert.KernelIdeal.Region0

end
-- ==== Proof.Region0Array.lean ====
/-
  Region 0's output array after the run. Point t of the grid (t < 20) reads rows [5000 t, 5000 t + 5000) of the left
  operand and the whole right operand, and writes back rows [5000 t, 5000 t + 5000) of the output. A row of a block's
  product depends only on the same row of the left block, so what point t writes back is the block of rows
  [5000 t, 5000 t + 5000) of the product of the WHOLE arrays; the 20 row ranges tile [0, 100000), row r lying in
  the block of point r / 5000; hence the array ends holding the product of the whole arrays.
-/
import proofs.«141457_j50551765074154_1_alg».proof.Proof.Region0Sum

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen

-- the buffer contents when the region is entered: any
variable (V : (c : Dev nD) → (b : Ref sig .tc) → Buf (Elt Ideal) ((c : Thread nD τ).loc b))

/-- The left operand's array as the region finds it, at its literal type. -/
abbrev lhsArr (c : Dev nD) : FVec Ideal S100000x512 .f32 := V c main_arg1
/-- The right operand's array as the region finds it, at its literal type. -/
abbrev rhsArr (c : Dev nD) : FVec Ideal S512x16 .f32 := V c main_arg2

theorem zeros2 : (![0, 0] : Fin 2 → Nat) = fun _ => 0 := funext fun a => by fin_cases a <;> rfl

/-- The printed index maps over the grid's 20 points: the left operand's block and the output's block sit at the
    same row block; every column block index, and the right operand's row block index, is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is its block of the product of the whole arrays as the region found them. -/
theorem flushed_eq (c : Dev nD) (t : Fin cfg0.N) :
    (dat0 (F := Ideal) V c).flushed 2 t
      = ((cfg0.win 2).blk t).view.read (Elt Ideal) (rowsTimes (lhsArr V c) (rhsArr V c)) := by
  show (cfg0.win 2).cut (grid0.coords t) ((dat0 V c).after 2 t) = _
  rw [after0_2]
  unfold out0_2
  rw [View.canon_unit_zero zeros2]
  simp only [View.ld_unit_zero (S := S5000x512) zeros2, View.ld_unit_zero (S := S512x16) zeros2]
  obtain ⟨e0, e1, e2, e3, e4⟩ := idx_facts t
  funext j
  show k0_pay1 (F := Ideal) (iblk0 V c 0 t) (iblk0 V c 1 t) j
    = rowsTimes (lhsArr V c) (rhsArr V c) (((cfg0.win 2).blk t).view.emb j)
  refine (pay_apply (iblk0 V c 0 t) (iblk0 V c 1 t) j).trans ?_
  unfold rowsTimes
  refine Finset.sum_congr rfl fun k _ => ?_
  show lhsArr V c (((cfg0.win 0).blk t).view.emb (lidxB j k)) * rhsArr V c (((cfg0.win 1).blk t).view.emb (ridxB j k))
    = lhsArr V c (lidxA (((cfg0.win 2).blk t).view.emb j) k) * rhsArr V c (ridxA (((cfg0.win 2).blk t).view.emb j) k)
  have h0 : ((cfg0.win 0).blk t).view.emb (lidxB j k) = lidxA (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ridxB j k) = ridxA (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [h0, h1]

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The 20 blocks cover the array: row r is in the block of the point whose row block is r / 5000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE ARRAY after region 0: the host's `dot_general` of the region's two input arrays as it found them. -/
theorem arr_eq (c : Dev nD) :
    (dat0 (F := Ideal) V c).arrAt 2 cfg0.N
      = Host.dotGeneral (F := Ideal) (φ₁ := .f32) (φ₂ := .f32) Cert.ReferenceIdeal.dot_S100000x512_S512x16_S100000x16_1_0_0_1_n_n none (V c main_arg1) (V c main_arg2) := by
  show _ = Host.dotGeneral (F := Ideal) Cert.ReferenceIdeal.dot_S100000x512_S512x16_S100000x16_1_0_0_1_n_n none (lhsArr V c) (rhsArr V c)
  rw [hostDot_eq]
  exact (dat0 V c).arrAt_eq_of_cover 2 (rowsTimes (lhsArr V c) (rhsArr V c)) (fun t _ => flushed_eq V c t) (fun i => covered i)

end Cert.KernelIdeal.Region0

end
-- ==== Proof.Region1Sum.lean ====
/-
  region 1 of the kernel's program, read as a value. The pallas_call walks the 100000 rows of its left operand in 10
  blocks of 10000 rows; at each point the body multiplies the block [10000, 16] by the whole right operand [16, 40]
  into a zero accumulator and stores the product as the output's block of the same rows. Over the extended reals the
  element (r, q) of a block's product is the sum over k < 16 of left (r, k) times right (k, q), with no rounding and
  no order of summation left in it; the host's dot_general over the whole arrays is the same sum at the same row.
  The blocks' row ranges [10000 t, 10000 t + 10000) tile [0, 100000), so the output array after the region is, at every
  index, that sum: the host's dot_general of the two arrays as the region found them.
-/
import proofs.«141457_j50551765074154_1_alg».proof.Proof.Gen.KernelIdeal.Frame
import proofs.«141457_j50551765074154_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen

/-! ## The row-by-column sum, over the whole arrays and over one block -/

/-- Row `i 0`, column `k` of the whole left operand. -/
abbrev lidxA (i : S100000x40.Idx) (k : Fin 16) : S100000x16.Idx := fun a => match a with
  | ⟨0, _⟩ => ⟨(i 0).val, (i 0).isLt⟩
  | ⟨1, _⟩ => ⟨k.val, k.isLt⟩
/-- Row `k`, column `i 1` of the right operand. -/
abbrev ridxA (i : S100000x40.Idx) (k : Fin 16) : S16x40.Idx := fun a => match a with
  | ⟨0, _⟩ => ⟨k.val, k.isLt⟩
  | ⟨1, _⟩ => ⟨(i 1).val, (i 1).isLt⟩
/-- The same inside a block of 10000 rows. -/
abbrev lidxB (j : S10000x40.Idx) (k : Fin 16) : S10000x16.Idx := fun a => match a with
  | ⟨0, _⟩ => ⟨(j 0).val, (j 0).isLt⟩
  | ⟨1, _⟩ => ⟨k.val, k.isLt⟩
abbrev ridxB (j : S10000x40.Idx) (k : Fin 16) : S16x40.Idx := fun a => match a with
  | ⟨0, _⟩ => ⟨k.val, k.isLt⟩
  | ⟨1, _⟩ => ⟨(j 1).val, (j 1).isLt⟩

/-- The product of the whole arrays, index by index: entry (r, q) is the sum over k of X (r, k) · W (k, q). -/
def rowsTimes (X : FVec Ideal S100000x16 .f32) (W : FVec Ideal S16x40 .f32) : FVec Ideal S100000x40 .f32 :=
  fun i => ∑ k : Fin 16, X (lidxA i k) * W (ridxA i k)

/-! ### The host's dot_general over the whole arrays is that sum -/

theorem refLhs_0 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x40_S100000x40_1_0_0_1_n_n.lhsBatch by decide), dif_pos (show (0 : Fin Cert.ReferenceIdeal.S100000x16.rank) ∈ Cert.ReferenceIdeal.dot_S100000x16_S16x40_S100000x40_1_0_0_1_n_n.lhsNonContracting by decide)]
  rfl
theorem refLhs_1 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
theorem refRhs_0 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
theorem refRhs_1 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 1).val = (i 1).val := by
  unfold DotDims.rhsIdx
  rw [dif_neg (show ¬(1 : Fin Cert.ReferenceIdeal.S16x40.rank) ∈ Cert.ReferenceIdeal.dot_S100000x16_S16x40_S100000x40_1_0_0_1_n_n.rhsBatch by decide), dif_pos (show (1 : Fin Cert.ReferenceIdeal.S16x40.rank) ∈ Cert.ReferenceIdeal.dot_S100000x16_S16x40_S100000x40_1_0_0_1_n_n.rhsNonContracting by decide)]
  rfl

/-- The host's `dot_general` of the whole arrays, at the extended reals, is `rowsTimes`. -/
theorem hostDot_eq (X : FVec Ideal S100000x16 .f32) (W : FVec Ideal S16x40 .f32) :
    Host.dotGeneral (F := Ideal) Cert.ReferenceIdeal.dot_S100000x16_S16x40_S100000x40_1_0_0_1_n_n none X W = rowsTimes X W := by
  funext i
  unfold rowsTimes
  simp only [Host.dotGeneral]
  rw [Ideal.dotGeneral_apply, ← Equiv.sum_comp (ValueIdx.contrEquiv1 Cert.ReferenceIdeal.dot_S100000x16_S16x40_S100000x40_1_0_0_1_n_n 16 rfl rfl).symm]
  refine Finset.sum_congr rfl fun k _ => ?_
  have hk := ValueIdx.contrEquiv1_symm_val Cert.ReferenceIdeal.dot_S100000x16_S16x40_S100000x40_1_0_0_1_n_n 16 rfl rfl k
  have el : Cert.ReferenceIdeal.dot_S100000x16_S16x40_S100000x40_1_0_0_1_n_n.lhsIdx i ((ValueIdx.contrEquiv1 Cert.ReferenceIdeal.dot_S100000x16_S16x40_S100000x40_1_0_0_1_n_n 16 rfl rfl).symm k) = lidxA i k := funext fun a => Fin.ext (by
    match a with
    | ⟨0, _⟩ => exact refLhs_0 _ _
    | ⟨1, _⟩ => exact (refLhs_1 _ _).trans hk)
  have er : Cert.ReferenceIdeal.dot_S100000x16_S16x40_S100000x40_1_0_0_1_n_n.rhsIdx i ((ValueIdx.contrEquiv1 Cert.ReferenceIdeal.dot_S100000x16_S16x40_S100000x40_1_0_0_1_n_n 16 rfl rfl).symm k) = ridxA i k := funext fun a => Fin.ext (by
    match a with
    | ⟨0, _⟩ => exact (refRhs_0 _ _).trans hk
    | ⟨1, _⟩ => exact refRhs_1 _ _)
  rw [el, er]

/-! ### The body's matmul of one block is the same sum over the block's rows -/

theorem blkLhs_0 (j : S10000x40.Idx) (q : dot_S10000x16_S16x40_S10000x40_1_0_0_1_n_n.contr.Idx) :
    (dot_S10000x16_S16x40_S10000x40_1_0_0_1_n_n.lhsIdx j q 0).val = (j 0).val := by
  unfold DotDims.lhsIdx
  rw [dif_neg (show ¬(0 : Fin S10000x16.rank) ∈ dot_S10000x16_S16x40_S10000x40_1_0_0_1_n_n.lhsBatch by decide), dif_pos (show (0 : Fin S10000x16.rank) ∈ dot_S10000x16_S16x40_S10000x40_1_0_0_1_n_n.lhsNonContracting by decide)]
  rfl
theorem blkLhs_1 (j : S10000x40.Idx) (q : dot_S10000x16_S16x40_S10000x40_1_0_0_1_n_n.contr.Idx) :
    (dot_S10000x16_S16x40_S10000x40_1_0_0_1_n_n.lhsIdx j q 1).val = (q ⟨0, by decide⟩).val :=
  dot_S10000x16_S16x40_S10000x40_1_0_0_1_n_n.lhsIdx_val_of_single rfl j q
theorem blkRhs_0 (j : S10000x40.Idx) (q : dot_S10000x16_S16x40_S10000x40_1_0_0_1_n_n.contr.Idx) :
    (dot_S10000x16_S16x40_S10000x40_1_0_0_1_n_n.rhsIdx j q 0).val = (q ⟨0, by decide⟩).val :=
  dot_S10000x16_S16x40_S10000x40_1_0_0_1_n_n.rhsIdx_val_of_single rfl j q
theorem blkRhs_1 (j : S10000x40.Idx) (q : dot_S10000x16_S16x40_S10000x40_1_0_0_1_n_n.contr.Idx) :
    (dot_S10000x16_S16x40_S10000x40_1_0_0_1_n_n.rhsIdx j q 1).val = (j 1).val := by
  unfold DotDims.rhsIdx
  rw [dif_neg (show ¬(1 : Fin S16x40.rank) ∈ dot_S10000x16_S16x40_S10000x40_1_0_0_1_n_n.rhsBatch by decide), dif_pos (show (1 : Fin S16x40.rank) ∈ dot_S10000x16_S16x40_S10000x40_1_0_0_1_n_n.rhsNonContracting by decide)]
  rfl

/-- The body's payload — the block times the right operand into a zero accumulator — at an index of the block. -/
theorem pay_apply (x0 : FVec Ideal S10000x16 .f32) (x1 : FVec Ideal S16x40 .f32) (j : S10000x40.Idx) :
    k1_pay1 (F := Ideal) x0 x1 j = ∑ k : Fin 16, x0 (lidxB j k) * x1 (ridxB j k) := by
  unfold k1_pay1
  simp only [matmul, shapeCast_self]
  rw [Ideal.matmul_constant_zero_apply, ← Equiv.sum_comp (ValueIdx.contrEquiv1 dot_S10000x16_S16x40_S10000x40_1_0_0_1_n_n 16 rfl rfl).symm]
  refine Finset.sum_congr rfl fun k _ => ?_
  have hk := ValueIdx.contrEquiv1_symm_val dot_S10000x16_S16x40_S10000x40_1_0_0_1_n_n 16 rfl rfl k
  have el : dot_S10000x16_S16x40_S10000x40_1_0_0_1_n_n.lhsIdx j ((ValueIdx.contrEquiv1 dot_S10000x16_S16x40_S10000x40_1_0_0_1_n_n 16 rfl rfl).symm k) = lidxB j k := funext fun a => Fin.ext (by
    match a with
    | ⟨0, _⟩ => exact blkLhs_0 _ _
    | ⟨1, _⟩ => exact (blkLhs_1 _ _).trans hk)
  have er : dot_S10000x16_S16x40_S10000x40_1_0_0_1_n_n.rhsIdx j ((ValueIdx.contrEquiv1 dot_S10000x16_S16x40_S10000x40_1_0_0_1_n_n 16 rfl rfl).symm k) = ridxB j k := funext fun a => Fin.ext (by
    match a with
    | ⟨0, _⟩ => exact (blkRhs_0 _ _).trans hk
    | ⟨1, _⟩ => exact blkRhs_1 _ _)
  rw [el, er]

end Cert.KernelIdeal.Region1

end
-- ==== Proof.Region1Array.lean ====
/-
  region 1's output array after the run. Point t of the grid (t < 10) reads rows [10000 t, 10000 t + 10000) of the left
  operand and the whole right operand, and writes back rows [10000 t, 10000 t + 10000) of the output. A row of a block's
  product depends only on the same row of the left block, so what point t writes back is the block of rows
  [10000 t, 10000 t + 10000) of the product of the WHOLE arrays; the 10 row ranges tile [0, 100000), row r lying in
  the block of point r / 10000; hence the array ends holding the product of the whole arrays.
-/
import proofs.«141457_j50551765074154_1_alg».proof.Proof.Region1Sum

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen

-- the buffer contents when the region is entered: any
variable (V : (c : Dev nD) → (b : Ref sig .tc) → Buf (Elt Ideal) ((c : Thread nD τ).loc b))

/-- The left operand's array as the region finds it, at its literal type. -/
abbrev lhsArr (c : Dev nD) : FVec Ideal S100000x16 .f32 := V c main_v47
/-- The right operand's array as the region finds it, at its literal type. -/
abbrev rhsArr (c : Dev nD) : FVec Ideal S16x40 .f32 := V c main_arg4

theorem zeros2 : (![0, 0] : Fin 2 → Nat) = fun _ => 0 := funext fun a => by fin_cases a <;> rfl

/-- The printed index maps over the grid's 10 points: the left operand's block and the output's block sit at the
    same row block; every column block index, and the right operand's row block index, is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is its block of the product of the whole arrays as the region found them. -/
theorem flushed_eq (c : Dev nD) (t : Fin cfg1.N) :
    (dat1 (F := Ideal) V c).flushed 2 t
      = ((cfg1.win 2).blk t).view.read (Elt Ideal) (rowsTimes (lhsArr V c) (rhsArr V c)) := by
  show (cfg1.win 2).cut (grid1.coords t) ((dat1 V c).after 2 t) = _
  rw [after1_2]
  unfold out1_2
  rw [View.canon_unit_zero zeros2]
  simp only [View.ld_unit_zero (S := S10000x16) zeros2, View.ld_unit_zero (S := S16x40) zeros2]
  obtain ⟨e0, e1, e2, e3, e4⟩ := idx_facts t
  funext j
  show k1_pay1 (F := Ideal) (iblk1 V c 0 t) (iblk1 V c 1 t) j
    = rowsTimes (lhsArr V c) (rhsArr V c) (((cfg1.win 2).blk t).view.emb j)
  refine (pay_apply (iblk1 V c 0 t) (iblk1 V c 1 t) j).trans ?_
  unfold rowsTimes
  refine Finset.sum_congr rfl fun k _ => ?_
  show lhsArr V c (((cfg1.win 0).blk t).view.emb (lidxB j k)) * rhsArr V c (((cfg1.win 1).blk t).view.emb (ridxB j k))
    = lhsArr V c (lidxA (((cfg1.win 2).blk t).view.emb j) k) * rhsArr V c (ridxA (((cfg1.win 2).blk t).view.emb j) k)
  have h0 : ((cfg1.win 0).blk t).view.emb (lidxB j k) = lidxA (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  have h1 : ((cfg1.win 1).blk t).view.emb (ridxB j k) = ridxA (((cfg1.win 2).blk t).view.emb j) k := by
    funext a; apply Fin.ext
    match a with
    | ⟨0, _⟩ => show win1_1.index t (0 : Fin 2) * 16 + 1 * k.val = k.val; omega
    | ⟨1, _⟩ => show win1_1.index t (1 : Fin 2) * 40 + 1 * (j 1).val = win1_2.index t (1 : Fin 2) * 40 + 1 * (j 1).val; omega
  rw [h0, h1]

/-- An index of the output array is in point `t`'s block iff each coordinate is in the block's range on its axis. -/
theorem mem_blk (t : Fin cfg1.N) (i : S100000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v48).slice (win1_2.rect t)).set ↔ _
  rw [View.set_slice_whole, Rect.mem_set_unit]
  exact Iff.rfl

/-- The 10 blocks cover the array: row r is in the block of the point whose row block is r / 10000. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 40 ≤ (i 1).val ∧ (i 1).val < win1_2.index t (1 : Fin 2) * 40 + 40; omega

/-- THE ARRAY after region 1: the host's `dot_general` of the region's two input arrays as it found them. -/
theorem arr_eq (c : Dev nD) :
    (dat1 (F := Ideal) V c).arrAt 2 cfg1.N
      = Host.dotGeneral (F := Ideal) (φ₁ := .f32) (φ₂ := .f32) Cert.ReferenceIdeal.dot_S100000x16_S16x40_S100000x40_1_0_0_1_n_n none (V c main_v47) (V c main_arg4) := by
  show _ = Host.dotGeneral (F := Ideal) Cert.ReferenceIdeal.dot_S100000x16_S16x40_S100000x40_1_0_0_1_n_n none (lhsArr V c) (rhsArr V c)
  rw [hostDot_eq]
  exact (dat1 V c).arrAt_eq_of_cover 2 (rowsTimes (lhsArr V c) (rhsArr V c)) (fun t _ => flushed_eq V c t) (fun i => covered i)

end Cert.KernelIdeal.Region1

end
-- ==== Proof.lean ====
/-
  A two-layer graph convolution: from the edge list the source and target vectors (with self-loops appended), the
  degree normalisation per edge, then twice "features times weights, gathered along sources, scaled per edge,
  summed into targets, plus bias", a relu between the layers and a log-softmax at the end, of which row 0 is returned.
  The kernel's program computes each "features times weights" by a pallas_call that walks the feature rows in blocks
  and multiplies each block by the whole weight matrix into a zero accumulator; the reference computes it by one
  dot_general. Every other operation is the same host operation in both programs.

  Over the extended reals a block's product and the whole product are the same sum over the shared coordinate, row by
  row, and the blocks' rows tile the array: each region's output array is the reference's dot_general of the region's
  inputs (Region0Array, Region1Array). The rest is the observation that the two programs' result buffers are then the
  same expression of the argument arrays (KernelResult), read off the kernel's run (KernelRun: the frame's launch with
  the result buffer kept) and the reference's (RefRun). No law of the extended reals beyond 0 + x = x is used, so the
  finiteness precondition is never opened. The idealization rewrote nothing, so `preserves` is `True`.
-/
import proofs.«141457_j50551765074154_1_alg».proof.Defs
import proofs.«141457_j50551765074154_1_alg».proof.Proof.Gen.Kernel
import proofs.«141457_j50551765074154_1_alg».proof.Proof.Gen.Kernel.Frame
import proofs.«141457_j50551765074154_1_alg».proof.Proof.Gen.KernelIdeal
import proofs.«141457_j50551765074154_1_alg».proof.Proof.Gen.KernelIdeal.Frame
import proofs.«141457_j50551765074154_1_alg».proof.Proof.Gen.ReferenceIdeal
import proofs.«141457_j50551765074154_1_alg».proof.Proof.Gen.Pre_finite_inputs
import proofs.«141457_j50551765074154_1_alg».proof.Proof.KernelRun
import proofs.«141457_j50551765074154_1_alg».proof.Proof.KernelResult
import proofs.«141457_j50551765074154_1_alg».proof.Proof.Region0Array
import proofs.«141457_j50551765074154_1_alg».proof.Proof.Region1Array
import proofs.«141457_j50551765074154_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is one line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the reference's line of
    operations folded over its launch contents, which is what the kernel's result buffer holds too. -/
theorem algebraic : Cert.algebraic_KernelIdeal_ReferenceIdeal := by
  intro m ρ m' ρ' _ hagree
  refine ⟨fun c => StableHlo.after (Cert.ReferenceIdeal.Value.ops (F := Ideal)) (StableHlo.launchContents m' c)
    (Proc.devRef .tc Cert.ReferenceIdeal.main_v67), ?_, Cert.ReferenceIdeal.Value.run (F := Ideal) m' ρ'⟩
  refine (θ_run Cert.KernelIdeal.defs _ _).mono (fun r h c => ⟨(h c).1.trans ?_, (h c).2⟩)
    (Cert.KernelIdeal.RunResult.run_result (F := Ideal) m ρ)
  exact Cert.KernelIdeal.Result.result_eq m ρ (fun V c => Cert.KernelIdeal.Region0.arr_eq V c)
    (fun V c => Cert.KernelIdeal.Region1.arr_eq V c) m' c (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
